-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_arg7 : FVec F S128x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x256 .f32) (main_arg4 : FVec F S256 .f32) (main_arg5 : FVec F S256 .f32) (main_arg6 : FVec F S256 .f32) (main_arg7 : FVec F S128x256 .f32) (main_arg8 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x256 : Shape := ⟨2, ![1, 256]⟩
abbrev S100000x256 : Shape := ⟨2, ![100000, 256]⟩
abbrev S4000x128 : Shape := ⟨2, ![4000, 128]⟩
abbrev S4000x1 : Shape := ⟨2, ![4000, 1]⟩
abbrev S4000x256 : Shape := ⟨2, ![4000, 256]⟩
abbrev S4000 : Shape := ⟨1, ![4000]⟩

abbrev nBuf : Space → Nat
  | .hbm => 49
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S256, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S100000x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S128x256, .f32⟩
  | .local _ .vmem, ⟨11, _⟩ => ⟨S1x256, .f32⟩
  | .local _ .vmem, ⟨12, _⟩ => ⟨S4000x256, .f32⟩
  | .local _ .vmem, ⟨13, _⟩ => ⟨S4000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  reduces_S4000x256_S4000 : S4000x256.Reduces [1] S4000
  shapeCasts_S4000_S4000x1 : S4000.ShapeCasts S4000x1
  broadcasts_S4000x1_S4000x256 : S4000x1.Broadcasts S4000x256
  inb_S4000x256_S4000x256_0_0 : ∀ a, (![0, 0] : Fin 2 → Nat) a + S4000x256.size a ≤ S4000x256.size a
  h_S4000x256 : 0 < S4000x256.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x256_S4000x256_1_0_0_1_n_n_wf : DotDims.WF S4000x128 S128x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x256.size a ≤ S100000x256.size a
  hwx0_9 : ∀ i : grid0.Coords, EltTy.bits .f32 = 32 ∨ (Rect.block (s := S100000x256) S4000x256.size (cc0_transform_9 i) (hinb0_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf

abbrev win0_0 : Pipeline.Window sig grid0 :=
  Pipeline.Window.ofSpec (Memref.whole main_v25) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S4000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S1x256 : Shape := ⟨2, ![1, 256]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S256, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x256, .f32⟩
  | .hbm, ⟨47, _⟩ => ⟨S1x256, .f32⟩
  | .hbm, ⟨48, _⟩ => ⟨S100000x256, .f32⟩
  | .hbm, ⟨49, _⟩ => ⟨S100000x256, .f32⟩
  | .hbm, ⟨50, _⟩ => ⟨S_, .f32⟩
  | .hbm, ⟨51, _⟩ => ⟨S100000, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x256, .f32⟩
  | .hbm, ⟨57, _⟩ => ⟨S100000x256, .f32⟩
  | .hbm, ⟨58, _⟩ => ⟨S100000x256, .f32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x256, .f32⟩
  | .hbm, ⟨66, _⟩ => ⟨S100000x256, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x1, .f32⟩
  | .hbm, ⟨71, _⟩ => ⟨S100000x256, .f32⟩
  | .hbm, ⟨72, _⟩ => ⟨S100000x256, .f32⟩
  | .hbm, ⟨73, _⟩ => ⟨S1x256, .f32⟩
  | .hbm, ⟨74, _⟩ => ⟨S100000x256, .f32⟩
  | .hbm, ⟨75, _⟩ => ⟨S100000x256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S_, .f32⟩
  | .hbm, ⟨80, _⟩ => ⟨S100000x256, .f32⟩
  | .hbm, ⟨81, _⟩ => ⟨S100000x256, .f32⟩
  | .hbm, ⟨82, _⟩ => ⟨S100000x256, .f32⟩
  | .hbm, ⟨83, _⟩ => ⟨S1x256, .f32⟩
  | .hbm, ⟨84, _⟩ => ⟨S100000x256, .f32⟩
  | .hbm, ⟨85, _⟩ => ⟨S100000x256, .f32⟩
  | .hbm, ⟨86, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call0_cst : Ref sig .tc := ⟨.hbm, 79, rfl⟩
abbrev main_call0_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.RowSpec.lean ====
/-
  One node's row of the graph-convolution block, as a function on the extended reals.

  For a node with aggregated neighbour features `a : Fin 128 → EReal`, destination-degree factor `n`, own features
  `f`, the layer's weights `W` and bias `b`, the normalisation's scale `ga` and shift `be`, and the skip projection
  `sW`, `sb`, the block's output at feature `j` is

      max (LayerNorm (lin (a · n) W b) ga be j) 0  +  lin f sW sb j

  where `lin x W b j = (∑ k, x k · W k j) + b j` is a linear layer's entry, and LayerNorm of a row `g` of width 256 is
  `(g j − mean g) · rsqrt (mean ((g − mean g)²) + ε) · ga j + be j`, the mean being the row's sum divided by 256.
  Division, rsqrt and the three float literals (256, ε, 0) are the ideal instance's: `Ideal.div`, `Ideal.rsqrt` and
  the words both programs print, which are never evaluated.

  `rowOf` reads that row off whole arrays of the program's shapes, and `G` is the whole [100000, 256] result.
-/
import Idealize.ShloMosaic.PureOps.Ideal
import Idealize.ShloMosaic.Lib.ValueIdx

noncomputable section

open scoped BigOperators
open Idealize.ShloMosaic Idealize.ShloMosaic.ValueIdx

namespace Cert.GcnRow

/-- The row width 256 as both programs print it. -/
abbrev width : EReal := Ideal.ofBits .f32 0x43800000#32
/-- The variance's ε as both programs print it. -/
abbrev eps : EReal := Ideal.ofBits .f32 0x3727C5AC#32
/-- The zero the activation compares with, as both programs print it. -/
abbrev zeroLit : EReal := Ideal.ofBits .f32 0x00000000#32

/-- One entry of a linear layer: the row times a column of the weights, plus the bias. -/
def lin (x : Fin 128 → EReal) (W : Fin 128 → Fin 256 → EReal) (b : Fin 256 → EReal) (j : Fin 256) : EReal :=
  (∑ k : Fin 128, x k * W k j) + b j

/-- A row's mean: its sum divided by the width. -/
def mean (g : Fin 256 → EReal) : EReal := Ideal.div (∑ l : Fin 256, g l) width

/-- The reciprocal standard deviation of a row: rsqrt of the mean squared deviation plus ε. -/
def invStd (g : Fin 256 → EReal) : EReal :=
  Ideal.rsqrt (mean (fun l => (g l - mean g) * (g l - mean g)) + eps)

/-- LayerNorm of a row at one feature. -/
def norm (g ga be : Fin 256 → EReal) (j : Fin 256) : EReal :=
  (g j - mean g) * invStd g * ga j + be j

/-- The block's output for one node at one feature. -/
def out (a f : Fin 128 → EReal) (n : EReal) (W sW : Fin 128 → Fin 256 → EReal) (b ga be sb : Fin 256 → EReal)
    (j : Fin 256) : EReal :=
  max (norm (lin (fun k => a k * n) W b) ga be j) zeroLit + lin f sW sb j

/-- The same row read off whole arrays: node `r`'s rows of the aggregate and the features, its degree factor, the
    weights and the per-feature vectors. -/
def rowOf (agg feat : (⟨2, ![100000, 128]⟩ : Shape).Idx → EReal) (nd : (⟨1, ![100000]⟩ : Shape).Idx → EReal)
    (W sW : (⟨2, ![128, 256]⟩ : Shape).Idx → EReal) (b ga be sb : (⟨1, ![256]⟩ : Shape).Idx → EReal)
    (r : Fin 100000) (j : Fin 256) : EReal :=
  out (fun k => agg (ix2 r k)) (fun k => feat (ix2 r k)) (nd (ix1 r)) (fun k l => W (ix2 k l)) (fun k l => sW (ix2 k l))
    (fun l => b (ix1 l)) (fun l => ga (ix1 l)) (fun l => be (ix1 l)) (fun l => sb (ix1 l)) j

/-- The whole result array: entry (r, j) is node `r`'s row at feature `j`. -/
def G (agg feat : (⟨2, ![100000, 128]⟩ : Shape).Idx → EReal) (nd : (⟨1, ![100000]⟩ : Shape).Idx → EReal)
    (W sW : (⟨2, ![128, 256]⟩ : Shape).Idx → EReal) (b ga be sb : (⟨1, ![256]⟩ : Shape).Idx → EReal) :
    (⟨2, ![100000, 256]⟩ : Shape).Idx → EReal :=
  fun i => rowOf agg feat nd W sW b ga be sb (i 0) (i 1)

/-- At an index given by its coordinates the result is that node's row. -/
theorem G_ix2 (agg feat : (⟨2, ![100000, 128]⟩ : Shape).Idx → EReal) (nd : (⟨1, ![100000]⟩ : Shape).Idx → EReal)
    (W sW : (⟨2, ![128, 256]⟩ : Shape).Idx → EReal) (b ga be sb : (⟨1, ![256]⟩ : Shape).Idx → EReal)
    (r : Fin 100000) (j : Fin 256) :
    G agg feat nd W sW b ga be sb (ix2 r j) = rowOf agg feat nd W sW b ga be sb r j := rfl

end Cert.GcnRow

end
-- ==== Proof.LayoutCols.lean ====
/-
  Two layout operations read at an index given by coordinates, in the column direction: a column `[a, 1]`
  broadcast along its unit axis to `[a, b]` reads, at (p, c), the column at p; and a vector `[a]` cast to a
  column `[a, 1]` reads, at (p, 0), the vector at p. These are what a row reduction kept as a column (a mean, a
  variance) meets on its way back to the row.
-/
import Idealize.ShloMosaic.Lib.Pipeline.Value
import Idealize.ShloMosaic.Lib.ValueIdx

namespace Cert.LayoutCols

open Idealize.ShloMosaic Idealize.ShloMosaic.ValueIdx

variable {α : Type}

/-- An `[a, 1]` column broadcast to `[a, b]` reads, at (p, c), the column's entry at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at (p, 0), the vector's entry at p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    rw [Nat.mul_one, Nat.add_zero])

end Cert.LayoutCols
-- ==== Proof.KernelBlock.lean ====
/-
  What the kernel's body computes on one block of 4000 nodes, entry by entry.

  The body's two payloads are a linear layer of the degree-scaled aggregate followed by LayerNorm, then ReLU, plus the
  skip linear layer of the block's own features. Here each stage is named as an operation on whole blocks
  (`blkLin`, `blkMean`, `blkNorm`), the payload is shown to be their composition, and each stage is read at an
  entry (p, q): the matrix product as the sum over the 128 contracted features, the lane reduction as the sum over
  the row's 256 entries, a column broadcast back along the row as the column's entry at p, a one-row operand
  broadcast down the block as its entry at q. The result: the payload at (p, q) is `GcnRow.out` of row p of the
  block's operands at feature q.
-/
import proofs.«150561_j11914239279898_1_alg».proof.Proof.Gen.KernelIdeal.Skeleton
import proofs.«150561_j11914239279898_1_alg».proof.Proof.RowSpec
import proofs.«150561_j11914239279898_1_alg».proof.Proof.LayoutCols
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx Cert.LayoutCols Cert

/-! ## The matrix product at an entry -/

theorem lhs_dot_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs_dot_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs_dot_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs_dot_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- A [4000,128] × [128,256] product into a zero accumulator, at (p, q): row p of the left operand against column q
    of the right, summed over the 128 contracted features. -/
theorem matmul_entry (L : FVec Ideal S4000x128 .f32) (R : FVec Ideal S128x256 .f32) (prec : Option ContractPrecision)
    (p : Fin 4000) (q : Fin 256) :
    matmul dot_S4000x128_S128x256_S4000x256_1_0_0_1_n_n prec L R (constant (F := Ideal) S4000x256 .f32 0x00000000#32) (ix2 p q)
      = ∑ k : Fin 128, L (ix2 p k) * R (ix2 k q) := by
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The lane reduction at a row -/

/-- The sum along a row of a [4000,256] block, at row p: the sum of the row's 256 entries. -/
theorem laneSum_entry (g : FVec Ideal S4000x256 .f32) (h : S4000x256.Reduces [1] S4000) (hφ : FKind.Formats .f32)
    (hacc : (0x00000000#32 : BitVec 32) = FKind.add.neutral .f32 hφ) (p : Fin 4000) :
    multiReduction .add [1] S4000 g 0x00000000#32 h hφ hacc (ix1 p) = ∑ l : Fin 256, g (ix2 p l) := by
  refine (Ideal.multiReduction_add_single g 0x00000000#32 h hφ hacc (ix1 p)).trans ?_
  refine Finset.sum_congr rfl fun l _ => ?_
  exact congrArg g (funext fun a => Fin.ext (by match a with | ⟨0, _⟩ => rfl | ⟨1, _⟩ => rfl))

/-! ## The stages on a block -/

/-- A one-row operand broadcast down the block. -/
abbrev brow (v : FVec Ideal S1x256 .f32) : FVec Ideal S4000x256 .f32 :=
  broadcastTo S4000x256 (shapeCast S1x256 v shapeCasts_S1x256_S1x256) broadcasts_S1x256_S4000x256
/-- A column broadcast along the row. -/
abbrev bcol (v : FVec Ideal S4000x1 .f32) : FVec Ideal S4000x256 .f32 :=
  broadcastTo S4000x256 v broadcasts_S4000x1_S4000x256

theorem brow_entry (v : FVec Ideal S1x256 .f32) (p : Fin 4000) (q : Fin 256) : brow v (ix2 p q) = v (ix2 (0 : Fin 1) q) := by
  unfold brow
  rw [shapeCast_self]
  exact broadcastTo_1b_ab_apply v _ p q

theorem bcol_entry (v : FVec Ideal S4000x1 .f32) (p : Fin 4000) (q : Fin 256) : bcol v (ix2 p q) = v (ix2 p (0 : Fin 1)) :=
  broadcastTo_a1_ab_apply v _ p q

/-- The linear layer on a block: the product into a zero accumulator plus the bias row. -/
def blkLin (X : FVec Ideal S4000x128 .f32) (W : FVec Ideal S128x256 .f32) (b : FVec Ideal S1x256 .f32) : FVec Ideal S4000x256 .f32 :=
  addf (matmul dot_S4000x128_S128x256_S4000x256_1_0_0_1_n_n (some .fp32) X W (constant S4000x256 .f32 0x00000000#32)) (brow b)

theorem blkLin_entry (X : FVec Ideal S4000x128 .f32) (W : FVec Ideal S128x256 .f32) (b : FVec Ideal S1x256 .f32) (p : Fin 4000) (q : Fin 256) :
    blkLin X W b (ix2 p q) = GcnRow.lin (fun k => X (ix2 p k)) (fun k l => W (ix2 k l)) (fun l => b (ix2 (0 : Fin 1) l)) q := by
  unfold blkLin GcnRow.lin
  rw [addf_apply, matmul_entry, brow_entry]

/-- The row means of a block, kept as a column: the lane sum divided by the width. -/
def blkMean (g : FVec Ideal S4000x256 .f32) : FVec Ideal S4000x1 .f32 :=
  divf (shapeCast S4000x1 (multiReduction .add [1] S4000 g 0x00000000#32 reduces_S4000x256_S4000 (.inl rfl) rfl) shapeCasts_S4000_S4000x1)
    (broadcast S4000x1 (Scalar.ofBits .f32 0x43800000#32))

theorem blkMean_entry (g : FVec Ideal S4000x256 .f32) (p : Fin 4000) :
    blkMean g (ix2 p (0 : Fin 1)) = GcnRow.mean (fun l => g (ix2 p l)) := by
  unfold blkMean GcnRow.mean
  rw [divf_apply, shapeCast_a_a1_apply]
  exact congrArg (fun s => Ideal.div s GcnRow.width) (laneSum_entry g _ _ _ p)

/-- A block with its row means taken off. -/
def blkCentred (g : FVec Ideal S4000x256 .f32) : FVec Ideal S4000x256 .f32 := subf g (bcol (blkMean g))

theorem blkCentred_entry (g : FVec Ideal S4000x256 .f32) (p : Fin 4000) (q : Fin 256) :
    blkCentred g (ix2 p q) = g (ix2 p q) - GcnRow.mean (fun l => g (ix2 p l)) := by
  unfold blkCentred
  rw [subf_apply, bcol_entry, blkMean_entry]

/-- The reciprocal standard deviations of a block's rows, kept as a column. -/
def blkInvStd (g : FVec Ideal S4000x256 .f32) : FVec Ideal S4000x1 .f32 :=
  rsqrt (addf (blkMean (mulf (blkCentred g) (blkCentred g))) (broadcast S4000x1 (Scalar.ofBits .f32 0x3727C5AC#32)))

theorem blkInvStd_entry (g : FVec Ideal S4000x256 .f32) (p : Fin 4000) :
    blkInvStd g (ix2 p (0 : Fin 1)) = GcnRow.invStd (fun l => g (ix2 p l)) := by
  unfold blkInvStd GcnRow.invStd
  show Ideal.rsqrt (blkMean (mulf (blkCentred g) (blkCentred g)) (ix2 p (0 : Fin 1)) + Ideal.ofBits .f32 0x3727C5AC#32) = _
  rw [blkMean_entry]
  simp only [mulf_apply, blkCentred_entry]

/-- LayerNorm on a block. -/
def blkNorm (g : FVec Ideal S4000x256 .f32) (ga be : FVec Ideal S1x256 .f32) : FVec Ideal S4000x256 .f32 :=
  addf (mulf (mulf (blkCentred g) (bcol (blkInvStd g))) (brow ga)) (brow be)

theorem blkNorm_entry (g : FVec Ideal S4000x256 .f32) (ga be : FVec Ideal S1x256 .f32) (p : Fin 4000) (q : Fin 256) :
    blkNorm g ga be (ix2 p q)
      = GcnRow.norm (fun l => g (ix2 p l)) (fun l => ga (ix2 (0 : Fin 1) l)) (fun l => be (ix2 (0 : Fin 1) l)) q := by
  unfold blkNorm GcnRow.norm
  rw [addf_apply, mulf_apply, mulf_apply, blkCentred_entry, bcol_entry, blkInvStd_entry, brow_entry, brow_entry]

/-! ## The payload -/

/-- The aggregate block scaled row by row by the degree column. -/
def blkScaled (A : FVec Ideal S4000x128 .f32) (n : FVec Ideal S4000x1 .f32) : FVec Ideal S4000x128 .f32 :=
  mulf (shapeCast S4000x128 A shapeCasts_S4000x128_S4000x128)
    (broadcastTo S4000x128 (shapeCast S4000x1 n shapeCasts_S4000x1_S4000x1) broadcasts_S4000x1_S4000x128)

theorem blkScaled_entry (A : FVec Ideal S4000x128 .f32) (n : FVec Ideal S4000x1 .f32) (p : Fin 4000) (k : Fin 128) :
    blkScaled A n (ix2 p k) = A (ix2 p k) * n (ix2 p (0 : Fin 1)) := by
  unfold blkScaled
  rw [mulf_apply, shapeCast_self, shapeCast_self, broadcastTo_a1_ab_apply]

/-- The body's payloads are these stages composed. -/
theorem pay_eq (x0 x1 : FVec Ideal S4000x128 .f32) (x2 : FVec Ideal S4000x1 .f32) (x3 x7 : FVec Ideal S128x256 .f32)
    (x4 x5 x6 x8 : FVec Ideal S1x256 .f32) :
    k0_pay1 (F := Ideal) x1 (k0_pay2 (F := Ideal) x0 x2 x3 x4 x5 x6) x7 x8
      = addf (maximumf (blkNorm (blkLin (blkScaled x0 x2) x3 x4) x5 x6) (broadcast S4000x256 (Scalar.ofBits .f32 0x00000000#32)))
          (blkLin x1 x7 x8) := rfl

/-- THE PAYLOAD AT AN ENTRY: row p of the block's operands through the block's formula, at feature q. -/
theorem pay_entry (x0 x1 : FVec Ideal S4000x128 .f32) (x2 : FVec Ideal S4000x1 .f32) (x3 x7 : FVec Ideal S128x256 .f32)
    (x4 x5 x6 x8 : FVec Ideal S1x256 .f32) (p : Fin 4000) (q : Fin 256) :
    k0_pay1 (F := Ideal) x1 (k0_pay2 (F := Ideal) x0 x2 x3 x4 x5 x6) x7 x8 (ix2 p q)
      = GcnRow.out (fun k => x0 (ix2 p k)) (fun k => x1 (ix2 p k)) (x2 (ix2 p (0 : Fin 1))) (fun k l => x3 (ix2 k l)) (fun k l => x7 (ix2 k l))
          (fun l => x4 (ix2 (0 : Fin 1) l)) (fun l => x5 (ix2 (0 : Fin 1) l)) (fun l => x6 (ix2 (0 : Fin 1) l)) (fun l => x8 (ix2 (0 : Fin 1) l)) q := by
  rw [pay_eq]
  unfold GcnRow.out
  rw [addf_apply, maximumf_apply, blkNorm_entry, blkLin_entry]
  simp only [blkLin_entry, blkScaled_entry]
  rfl

/-- The same with each operand's row NAMED: whatever the rows of the block's operands are known to be, the payload at
    (p, q) is the block's formula of those. -/
theorem pay_entry_of (x0 x1 : FVec Ideal S4000x128 .f32) (x2 : FVec Ideal S4000x1 .f32) (x3 x7 : FVec Ideal S128x256 .f32)
    (x4 x5 x6 x8 : FVec Ideal S1x256 .f32) (p : Fin 4000) (q : Fin 256)
    (a f : Fin 128 → EReal) (n : EReal) (W sW : Fin 128 → Fin 256 → EReal) (b ga be sb : Fin 256 → EReal)
    (h0 : ∀ k, x0 (ix2 p k) = a k) (h1 : ∀ k, x1 (ix2 p k) = f k) (h2 : x2 (ix2 p (0 : Fin 1)) = n)
    (h3 : ∀ k l, x3 (ix2 k l) = W k l) (h7 : ∀ k l, x7 (ix2 k l) = sW k l)
    (h4 : ∀ l, x4 (ix2 (0 : Fin 1) l) = b l) (h5 : ∀ l, x5 (ix2 (0 : Fin 1) l) = ga l) (h6 : ∀ l, x6 (ix2 (0 : Fin 1) l) = be l)
    (h8 : ∀ l, x8 (ix2 (0 : Fin 1) l) = sb l) :
    k0_pay1 (F := Ideal) x1 (k0_pay2 (F := Ideal) x0 x2 x3 x4 x5 x6) x7 x8 (ix2 p q) = GcnRow.out a f n W sW b ga be sb q := by
  obtain rfl : (fun k => x0 (ix2 p k)) = a := funext h0
  obtain rfl : (fun k => x1 (ix2 p k)) = f := funext h1
  obtain rfl := h2
  obtain rfl : (fun k l => x3 (ix2 k l)) = W := funext fun k => funext fun l => h3 k l
  obtain rfl : (fun k l => x7 (ix2 k l)) = sW := funext fun k => funext fun l => h7 k l
  obtain rfl : (fun l => x4 (ix2 (0 : Fin 1) l)) = b := funext h4
  obtain rfl : (fun l => x5 (ix2 (0 : Fin 1) l)) = ga := funext h5
  obtain rfl : (fun l => x6 (ix2 (0 : Fin 1) l)) = be := funext h6
  obtain rfl : (fun l => x8 (ix2 (0 : Fin 1) l)) = sb := funext h8
  exact pay_entry x0 x1 x2 x3 x7 x4 x5 x6 x8 p q

/-- The payload on blocks that are rows of whole arrays: if the block's operands are node r's rows of arrays A, X, the
    degree vector N at r, the weight matrices and the per-feature vectors, then the payload at (p, q) is the whole
    result function `GcnRow.G` of those arrays at (r, q). All arrays are arbitrary. -/
theorem point_entry_of (x0 x1 : FVec Ideal S4000x128 .f32) (x2 : FVec Ideal S4000x1 .f32) (x3 x7 : FVec Ideal S128x256 .f32)
    (x4 x5 x6 x8 : FVec Ideal S1x256 .f32) (p : Fin 4000) (q : Fin 256)
    (A X : (⟨2, ![100000, 128]⟩ : Shape).Idx → EReal) (N : (⟨1, ![100000]⟩ : Shape).Idx → EReal)
    (W sW : (⟨2, ![128, 256]⟩ : Shape).Idx → EReal) (b ga be sb : (⟨1, ![256]⟩ : Shape).Idx → EReal) (r : Fin 100000)
    (h0 : ∀ k, x0 (ix2 p k) = A (ix2 r k)) (h1 : ∀ k, x1 (ix2 p k) = X (ix2 r k)) (h2 : x2 (ix2 p (0 : Fin 1)) = N (ix1 r))
    (h3 : ∀ k l, x3 (ix2 k l) = W (ix2 k l)) (h7 : ∀ k l, x7 (ix2 k l) = sW (ix2 k l))
    (h4 : ∀ l, x4 (ix2 (0 : Fin 1) l) = b (ix1 l)) (h5 : ∀ l, x5 (ix2 (0 : Fin 1) l) = ga (ix1 l))
    (h6 : ∀ l, x6 (ix2 (0 : Fin 1) l) = be (ix1 l)) (h8 : ∀ l, x8 (ix2 (0 : Fin 1) l) = sb (ix1 l)) :
    k0_pay1 (F := Ideal) x1 (k0_pay2 (F := Ideal) x0 x2 x3 x4 x5 x6) x7 x8 (ix2 p q) = GcnRow.G A X N W sW b ga be sb (ix2 r q) := by
  rw [GcnRow.G_ix2]
  unfold GcnRow.rowOf
  exact pay_entry_of x0 x1 x2 x3 x7 x4 x5 x6 x8 p q _ _ _ _ _ _ _ _ _ h0 h1 h2 h3 h7 h4 h5 h6 h8

end Cert.KernelIdeal.Block

end
-- ==== Proof.HostArrays.lean ====
/-
  The arrays the call finds, as functions of the arguments.

  Before the call the program runs its host prelude. The aggregate it leaves (a gather along the edges' sources
  scatter-added at their destinations, of the source-scaled features) and the destination-degree factor (rsqrt of the
  clamped scatter-add of ones) are the same chains of host operations the reference applies, so they are stated as
  the reference's own stage functions of this program's arguments, and never opened. The degree column and the four
  per-feature rows are reshapes: of that factor, and of an argument vector.
-/
import proofs.«150561_j11914239279898_1_alg».proof.Proof.Gen.KernelIdeal.Frame
import proofs.«150561_j11914239279898_1_alg».proof.Proof.Gen.ReferenceIdeal.Read
import Idealize.ShloMosaic.Lib.StableHlo.Run

set_option maxRecDepth 16384
set_option Elab.async false

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Arr

open Cert.KernelIdeal Cert.KernelIdeal.Gen Cert

variable (m : (ℓ : Loc nD τ sig) → Buf (Elt Ideal) ℓ)

/-- The aggregate the call finds is the chain of host operations the reference applies too, of the same arguments. -/
theorem hostAgg (c : Dev nD) :
    (V m c main_v25 : S100000x128.Idx → EReal)
      = Cert.ReferenceIdeal.Read.val_main_v25 (F := Ideal) (m ((c : Thread nD τ).loc main_arg0)) (m ((c : Thread nD τ).loc main_arg1)) (m ((c : Thread nD τ).loc main_arg2)) := by
  dsimp only [V, hostOps0]
  after_results_simp
  rfl

/-- The degree column the call finds is the destination-degree factor, a vector, reshaped to a column. -/
theorem hostDeg (c : Dev nD) :
    (V m c main_v26 : S100000x1.Idx → EReal)
      = shapeCast S100000x1 (Cert.ReferenceIdeal.Read.val_main_v12 (F := Ideal) (m ((c : Thread nD τ).loc main_arg2))) shapeCasts_S100000_S100000x1 := by
  dsimp only [V, hostOps0]
  after_results_simp
  rfl

/-- The layer's bias as the call finds it: the vector reshaped to one row. -/
theorem hostBias (c : Dev nD) :
    (V m c main_v27 : S1x256.Idx → EReal) = shapeCast S1x256 ((m ((c : Thread nD τ).loc main_arg4)) : S256.Idx → EReal) shapeCasts_S256_S1x256 := by
  dsimp only [V, hostOps0]
  after_results_simp
  rfl

/-- The normalisation's scale as the call finds it: the vector reshaped to one row. -/
theorem hostGamma (c : Dev nD) :
    (V m c main_v28 : S1x256.Idx → EReal) = shapeCast S1x256 ((m ((c : Thread nD τ).loc main_arg5)) : S256.Idx → EReal) shapeCasts_S256_S1x256 := by
  dsimp only [V, hostOps0]
  after_results_simp
  rfl

/-- The normalisation's shift as the call finds it: the vector reshaped to one row. -/
theorem hostBeta (c : Dev nD) :
    (V m c main_v29 : S1x256.Idx → EReal) = shapeCast S1x256 ((m ((c : Thread nD τ).loc main_arg6)) : S256.Idx → EReal) shapeCasts_S256_S1x256 := by
  dsimp only [V, hostOps0]
  after_results_simp
  rfl

/-- The skip projection's bias as the call finds it: the vector reshaped to one row. -/
theorem hostSkipBias (c : Dev nD) :
    (V m c main_v30 : S1x256.Idx → EReal) = shapeCast S1x256 ((m ((c : Thread nD τ).loc main_arg8)) : S256.Idx → EReal) shapeCasts_S256_S1x256 := by
  dsimp only [V, hostOps0]
  after_results_simp
  rfl

end Cert.KernelIdeal.Arr

end
-- ==== Proof.BlockReads.lean ====
/-
  Each window's block at a point, read at an entry of the array the call finds.

  Point t of the 25 works on nodes 4000·t … 4000·t + 3999: windows 0, 1, 2 (the aggregate, the features, the degree
  column) and the result window 9 sit at block index (t, 0); the weight matrices and the per-feature rows sit at
  (0, 0) at every point. So entry (p, ·) of a moving window's block is entry (4000·t + p, ·) of its array, and a fixed
  window's block is its whole array. Each read holds for ANY array of the window's shape, in particular for the array the call finds; nothing here says
  what the arrays hold.
-/
import proofs.«150561_j11914239279898_1_alg».proof.Proof.Gen.KernelIdeal.Frame
import Idealize.ShloMosaic.Lib.Pipeline.Value
import Idealize.ShloMosaic.Lib.ValueIdx

set_option maxRecDepth 16384
set_option Elab.async false

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Arr

open Cert.KernelIdeal Cert.KernelIdeal.Gen Cert

variable (m : (ℓ : Loc nD τ sig) → Buf (Elt Ideal) ℓ)

/-! ## Where each window's block sits, decided over the 25 points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-! ## Each window's block, of an ARBITRARY array, read at an entry -/

/-- Window 0's block at point t, of ANY array of its shape, at (p, k): the array at (4000·t + p, k). -/
theorem read0 (f : S100000x128.Idx → EReal) (t : Fin cfg0.N) (p : Fin 4000) (k : Fin 128) (r : Fin 100000) (hr : r.val = t.val * 4000 + p.val) :
    (((cfg0.win 0).blk t).view.read (Elt Ideal) f : FVec Ideal S4000x128 .f32) (ix2 p k) = f (ix2 r k) := by
  obtain ⟨e0, e1⟩ := idx0 t
  rw [View.read_apply]
  refine congrArg f (funext fun a => Fin.ext ?_)
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- Window 1's block at point t, of ANY array of its shape, at (p, k): the array at (4000·t + p, k). -/
theorem read1 (f : S100000x128.Idx → EReal) (t : Fin cfg0.N) (p : Fin 4000) (k : Fin 128) (r : Fin 100000) (hr : r.val = t.val * 4000 + p.val) :
    (((cfg0.win 1).blk t).view.read (Elt Ideal) f : FVec Ideal S4000x128 .f32) (ix2 p k) = f (ix2 r k) := by
  obtain ⟨e0, e1⟩ := idx1 t
  rw [View.read_apply]
  refine congrArg f (funext fun a => Fin.ext ?_)
  match a with
  | ⟨0, _⟩ => show win0_1.index t (0 : Fin 2) * 4000 + 1 * p.val = r.val; rw [e0, hr]; omega
  | ⟨1, _⟩ => show win0_1.index t (1 : Fin 2) * 128 + 1 * k.val = k.val; rw [e1]; omega

/-- Window 2's block at point t, of ANY column, at (p, 0): the column at 4000·t + p. -/
theorem read2 (f : S100000x1.Idx → EReal) (t : Fin cfg0.N) (p : Fin 4000) (r : Fin 100000) (hr : r.val = t.val * 4000 + p.val) :
    (((cfg0.win 2).blk t).view.read (Elt Ideal) f : FVec Ideal S4000x1 .f32) (ix2 p (0 : Fin 1)) = f (ix2 r (0 : Fin 1)) := by
  obtain ⟨e0, e1⟩ := idx2 t
  rw [View.read_apply]
  refine congrArg f (funext fun a => Fin.ext ?_)
  match a with
  | ⟨0, _⟩ => show win0_2.index t (0 : Fin 2) * 4000 + 1 * p.val = r.val; rw [e0, hr]; omega
  | ⟨1, _⟩ => show win0_2.index t (1 : Fin 2) * 1 + 1 * 0 = 0; rw [e1]

/-- Window 3's block at any point, of ANY array of its shape: the whole array. -/
theorem read3 (f : S128x256.Idx → EReal) (t : Fin cfg0.N) (k : Fin 128) (l : Fin 256) :
    (((cfg0.win 3).blk t).view.read (Elt Ideal) f : FVec Ideal S128x256 .f32) (ix2 k l) = f (ix2 k l) := by
  obtain ⟨e0, e1⟩ := idx3 t
  rw [View.read_apply]
  refine congrArg f (funext fun a => Fin.ext ?_)
  match a with
  | ⟨0, _⟩ => show win0_3.index t (0 : Fin 2) * 128 + 1 * k.val = k.val; rw [e0]; omega
  | ⟨1, _⟩ => show win0_3.index t (1 : Fin 2) * 256 + 1 * l.val = l.val; rw [e1]; omega

/-- Window 7's block at any point, of ANY array of its shape: the whole array. -/
theorem read7 (f : S128x256.Idx → EReal) (t : Fin cfg0.N) (k : Fin 128) (l : Fin 256) :
    (((cfg0.win 7).blk t).view.read (Elt Ideal) f : FVec Ideal S128x256 .f32) (ix2 k l) = f (ix2 k l) := by
  obtain ⟨e0, e1⟩ := idx7 t
  rw [View.read_apply]
  refine congrArg f (funext fun a => Fin.ext ?_)
  match a with
  | ⟨0, _⟩ => show win0_7.index t (0 : Fin 2) * 128 + 1 * k.val = k.val; rw [e0]; omega
  | ⟨1, _⟩ => show win0_7.index t (1 : Fin 2) * 256 + 1 * l.val = l.val; rw [e1]; omega

/-- Window 4's block at any point, of ANY one-row array: the whole row. -/
theorem read4 (f : S1x256.Idx → EReal) (t : Fin cfg0.N) (l : Fin 256) :
    (((cfg0.win 4).blk t).view.read (Elt Ideal) f : FVec Ideal S1x256 .f32) (ix2 (0 : Fin 1) l) = f (ix2 (0 : Fin 1) l) := by
  obtain ⟨e0, e1⟩ := idx4 t
  rw [View.read_apply]
  refine congrArg f (funext fun a => Fin.ext ?_)
  match a with
  | ⟨0, _⟩ => show win0_4.index t (0 : Fin 2) * 1 + 1 * 0 = 0; rw [e0]
  | ⟨1, _⟩ => show win0_4.index t (1 : Fin 2) * 256 + 1 * l.val = l.val; rw [e1]; omega

/-- Window 5's block at any point, of ANY one-row array: the whole row. -/
theorem read5 (f : S1x256.Idx → EReal) (t : Fin cfg0.N) (l : Fin 256) :
    (((cfg0.win 5).blk t).view.read (Elt Ideal) f : FVec Ideal S1x256 .f32) (ix2 (0 : Fin 1) l) = f (ix2 (0 : Fin 1) l) := by
  obtain ⟨e0, e1⟩ := idx5 t
  rw [View.read_apply]
  refine congrArg f (funext fun a => Fin.ext ?_)
  match a with
  | ⟨0, _⟩ => show win0_5.index t (0 : Fin 2) * 1 + 1 * 0 = 0; rw [e0]
  | ⟨1, _⟩ => show win0_5.index t (1 : Fin 2) * 256 + 1 * l.val = l.val; rw [e1]; omega

/-- Window 6's block at any point, of ANY one-row array: the whole row. -/
theorem read6 (f : S1x256.Idx → EReal) (t : Fin cfg0.N) (l : Fin 256) :
    (((cfg0.win 6).blk t).view.read (Elt Ideal) f : FVec Ideal S1x256 .f32) (ix2 (0 : Fin 1) l) = f (ix2 (0 : Fin 1) l) := by
  obtain ⟨e0, e1⟩ := idx6 t
  rw [View.read_apply]
  refine congrArg f (funext fun a => Fin.ext ?_)
  match a with
  | ⟨0, _⟩ => show win0_6.index t (0 : Fin 2) * 1 + 1 * 0 = 0; rw [e0]
  | ⟨1, _⟩ => show win0_6.index t (1 : Fin 2) * 256 + 1 * l.val = l.val; rw [e1]; omega

/-- Window 8's block at any point, of ANY one-row array: the whole row. -/
theorem read8 (f : S1x256.Idx → EReal) (t : Fin cfg0.N) (l : Fin 256) :
    (((cfg0.win 8).blk t).view.read (Elt Ideal) f : FVec Ideal S1x256 .f32) (ix2 (0 : Fin 1) l) = f (ix2 (0 : Fin 1) l) := by
  obtain ⟨e0, e1⟩ := idx8 t
  rw [View.read_apply]
  refine congrArg f (funext fun a => Fin.ext ?_)
  match a with
  | ⟨0, _⟩ => show win0_8.index t (0 : Fin 2) * 1 + 1 * 0 = 0; rw [e0]
  | ⟨1, _⟩ => show win0_8.index t (1 : Fin 2) * 256 + 1 * l.val = l.val; rw [e1]; omega

/-! ## The same for the arrays the call finds -/

theorem blk0 (c : Dev nD) (t : Fin cfg0.N) (p : Fin 4000) (k : Fin 128) (r : Fin 100000) (hr : r.val = t.val * 4000 + p.val) :
    (iblk m c 0 t : FVec Ideal S4000x128 .f32) (ix2 p k) = (V m c main_v25 : S100000x128.Idx → EReal) (ix2 r k) :=
  read0 (V m c main_v25) t p k r hr
theorem blk1 (c : Dev nD) (t : Fin cfg0.N) (p : Fin 4000) (k : Fin 128) (r : Fin 100000) (hr : r.val = t.val * 4000 + p.val) :
    (iblk m c 1 t : FVec Ideal S4000x128 .f32) (ix2 p k) = (V m c main_arg0 : S100000x128.Idx → EReal) (ix2 r k) :=
  read1 (V m c main_arg0) t p k r hr
theorem blk2 (c : Dev nD) (t : Fin cfg0.N) (p : Fin 4000) (r : Fin 100000) (hr : r.val = t.val * 4000 + p.val) :
    (iblk m c 2 t : FVec Ideal S4000x1 .f32) (ix2 p (0 : Fin 1)) = (V m c main_v26 : S100000x1.Idx → EReal) (ix2 r (0 : Fin 1)) :=
  read2 (V m c main_v26) t p r hr
theorem blk3 (c : Dev nD) (t : Fin cfg0.N) (k : Fin 128) (l : Fin 256) :
    (iblk m c 3 t : FVec Ideal S128x256 .f32) (ix2 k l) = (V m c main_arg3 : S128x256.Idx → EReal) (ix2 k l) :=
  read3 (V m c main_arg3) t k l
theorem blk7 (c : Dev nD) (t : Fin cfg0.N) (k : Fin 128) (l : Fin 256) :
    (iblk m c 7 t : FVec Ideal S128x256 .f32) (ix2 k l) = (V m c main_arg7 : S128x256.Idx → EReal) (ix2 k l) :=
  read7 (V m c main_arg7) t k l
theorem blk4 (c : Dev nD) (t : Fin cfg0.N) (l : Fin 256) :
    (iblk m c 4 t : FVec Ideal S1x256 .f32) (ix2 (0 : Fin 1) l) = (V m c main_v27 : S1x256.Idx → EReal) (ix2 (0 : Fin 1) l) :=
  read4 (V m c main_v27) t l
theorem blk5 (c : Dev nD) (t : Fin cfg0.N) (l : Fin 256) :
    (iblk m c 5 t : FVec Ideal S1x256 .f32) (ix2 (0 : Fin 1) l) = (V m c main_v28 : S1x256.Idx → EReal) (ix2 (0 : Fin 1) l) :=
  read5 (V m c main_v28) t l
theorem blk6 (c : Dev nD) (t : Fin cfg0.N) (l : Fin 256) :
    (iblk m c 6 t : FVec Ideal S1x256 .f32) (ix2 (0 : Fin 1) l) = (V m c main_v29 : S1x256.Idx → EReal) (ix2 (0 : Fin 1) l) :=
  read6 (V m c main_v29) t l
theorem blk8 (c : Dev nD) (t : Fin cfg0.N) (l : Fin 256) :
    (iblk m c 8 t : FVec Ideal S1x256 .f32) (ix2 (0 : Fin 1) l) = (V m c main_v30 : S1x256.Idx → EReal) (ix2 (0 : Fin 1) l) :=
  read8 (V m c main_v30) t l

/-- Entry (p, q) of point t's block of the result array is entry (4000·t + p, q) of the array. -/
theorem emb_out (t : Fin cfg0.N) (p : Fin 4000) (q : Fin 256) (r : Fin 100000) (hr : r.val = t.val * 4000 + p.val) :
    ((cfg0.win 9).blk t).view.emb (ix2 p q : S4000x256.Idx) = (ix2 r q : S100000x256.Idx) := by
  obtain ⟨e0, e1⟩ := idx9 t
  funext a
  apply Fin.ext
  match a with
  | ⟨0, _⟩ => show win0_9.index t (0 : Fin 2) * 4000 + 1 * p.val = r.val; rw [e0, hr]; omega
  | ⟨1, _⟩ => show win0_9.index t (1 : Fin 2) * 256 + 1 * q.val = q.val; rw [e1]; omega

end Cert.KernelIdeal.Arr

end
-- ==== Proof.KernelArray.lean ====
/-
  The kernel's result array after the run, as one function of the argument arrays.

  The call runs the body at 25 points; point t works on nodes 4000·t … 4000·t + 3999. Its input blocks are those rows
  of the aggregate, of the features and of the degree column, and the whole weight matrices and per-feature rows; the
  block it writes back is rows 4000·t … of the result. By the block's entry formula, what point t writes at (p, q) is
  node (4000·t + p)'s row of the block's formula at feature q, so every point writes its block of ONE whole-array
  function, `GcnRow.G`; the 25 blocks tile the result, so the result array ends holding `G`.

  The arrays the call finds are the host operations' results: the aggregate and the destination-degree factor are the
  same chains of host operations the reference applies (a gather and scatter-adds over the edges), carried here as the
  reference's own stage functions of the arguments and never opened; the degree column and the four per-feature rows
  are reshapes of a vector, read back at an entry.
-/
import proofs.«150561_j11914239279898_1_alg».proof.Proof.Gen.KernelIdeal.Value
import proofs.«150561_j11914239279898_1_alg».proof.Proof.Gen.ReferenceIdeal.Read
import proofs.«150561_j11914239279898_1_alg».proof.Proof.KernelBlock
import proofs.«150561_j11914239279898_1_alg».proof.Proof.HostArrays
import proofs.«150561_j11914239279898_1_alg».proof.Proof.BlockReads
import proofs.«150561_j11914239279898_1_alg».proof.Proof.RowSpec
import proofs.«150561_j11914239279898_1_alg».proof.Proof.LayoutCols
import Idealize.ShloMosaic.Lib.Pipeline.Value
import Idealize.ShloMosaic.Lib.ValueLayout

set_option maxRecDepth 16384
set_option Elab.async false

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Arr

open Cert.KernelIdeal Cert.KernelIdeal.Gen Cert.KernelIdeal.Value Cert Cert.LayoutCols

variable (m : (ℓ : Loc nD τ sig) → Buf (Elt Ideal) ℓ) (ρ : Dev nD → PrngReg)

/-! ## What a point writes back -/

theorem hz : (![0, 0] : Fin 2 → Nat) = fun _ => 0 := funext fun a => by fin_cases a <;> rfl

/-- WHAT POINT t WRITES BACK is block t of ANY function R that the body's payload on point t's blocks agrees with,
    entry (p, q) against entry (4000·t + p, q). -/
theorem flushed_eq_of (c : Dev nD) (t : Fin cfg0.N) (R : S100000x256.Idx → EReal)
    (hR : ∀ (p : Fin 4000) (q : Fin 256) (r : Fin 100000), r.val = t.val * 4000 + p.val →
      k0_pay1 (F := Ideal) (iblk m c 1 t) (k0_pay2 (F := Ideal) (iblk m c 0 t) (iblk m c 2 t) (iblk m c 3 t) (iblk m c 4 t) (iblk m c 5 t) (iblk m c 6 t)) (iblk m c 7 t) (iblk m c 8 t) (ix2 p q)
        = R (ix2 r q)) :
    (dats m 0 c).flushed 9 t = ((cfg0.win 9).blk t).view.read (Elt Ideal) R := by
  rw [flushed9]
  unfold out0_9
  rw [View.canon_unit_zero hz]
  simp only [View.ld_unit_zero (S := S4000x128) hz, View.ld_unit_zero (S := S4000x1) hz, View.ld_unit_zero (S := S128x256) hz,
    View.ld_unit_zero (S := S1x256) hz]
  funext y
  obtain ⟨p, q, rfl⟩ : ∃ (p : Fin 4000) (q : Fin 256), y = ix2 p q := ⟨y 0, y 1, eq_ix2 y⟩
  have hN : cfg0.N = 25 := N_0
  have ht : t.val < 25 := hN ▸ t.isLt
  have hp : p.val < 4000 := p.isLt
  have hr : (⟨t.val * 4000 + p.val, by omega⟩ : Fin 100000).val = t.val * 4000 + p.val := rfl
  show k0_pay1 (F := Ideal) (iblk m c 1 t) (k0_pay2 (F := Ideal) (iblk m c 0 t) (iblk m c 2 t) (iblk m c 3 t) (iblk m c 4 t) (iblk m c 5 t) (iblk m c 6 t)) (iblk m c 7 t) (iblk m c 8 t) (ix2 p q)
    = R (((cfg0.win 9).blk t).view.emb (ix2 p q : S4000x256.Idx))
  rw [emb_out t p q _ hr]
  exact hR p q _ hr

/-! ## The array after the run -/

/-- An index of the result array is in point t's block iff each coordinate is in the block's range on its axis. -/
theorem mem_blk (t : Fin cfg0.N) (i : S100000x256.Idx) :
    i ∈ ((cfg0.win 9).blk t).view.set ↔ ∀ a : Fin 2, win0_9.index t a * S4000x256.size a ≤ (i a).val ∧ (i a).val < win0_9.index t a * S4000x256.size a + S4000x256.size a := by
  show i ∈ ((View.whole main_v31).slice (win0_9.rect t)).set ↔ _
  rw [View.set_slice_whole, Rect.mem_set_unit]
  exact Iff.rfl

/-- Every entry of the result array is in the block of the point that works on its node: point (node / 4000). -/
theorem cover (i : S100000x256.Idx) : ∃ t : Fin cfg0.N, (cfg0.win 9).flush t = true ∧ i ∈ ((cfg0.win 9).blk t).view.set := by
  have hi0 : (i 0).val < 100000 := (i 0).isLt
  have hi1 : (i 1).val < 256 := (i 1).isLt
  have hN : cfg0.N = 25 := N_0
  have htv : (⟨(i 0).val / 4000, by rw [hN]; omega⟩ : Fin cfg0.N).val = (i 0).val / 4000 := rfl
  obtain ⟨e0, e1⟩ := idx9 ⟨(i 0).val / 4000, by rw [hN]; omega⟩
  refine ⟨⟨(i 0).val / 4000, by rw [hN]; omega⟩, flush0_9 _, ?_⟩
  rw [mem_blk]
  intro a
  match a with
  | ⟨0, _⟩ =>
    show win0_9.index _ (0 : Fin 2) * 4000 ≤ (i 0).val ∧ (i 0).val < win0_9.index _ (0 : Fin 2) * 4000 + 4000
    rw [e0, htv]; omega
  | ⟨1, _⟩ =>
    show win0_9.index _ (1 : Fin 2) * 256 ≤ (i 1).val ∧ (i 1).val < win0_9.index _ (1 : Fin 2) * 256 + 256
    rw [e1]; omega

/-- THE ARRAY after the run is ANY function R that every point's payload agrees with. -/
theorem final_of (c : Dev nD) (R : S100000x256.Idx → EReal)
    (hR : ∀ (t : Fin cfg0.N) (p : Fin 4000) (q : Fin 256) (r : Fin 100000), r.val = t.val * 4000 + p.val →
      k0_pay1 (F := Ideal) (iblk m c 1 t) (k0_pay2 (F := Ideal) (iblk m c 0 t) (iblk m c 2 t) (iblk m c 3 t) (iblk m c 4 t) (iblk m c 5 t) (iblk m c 6 t)) (iblk m c 7 t) (iblk m c 8 t) (ix2 p q)
        = R (ix2 r q)) :
    (dats m 0 c).arrAt 9 cfg0.N = R :=
  (dats m 0 c).arrAt_eq_of_cover 9 R (fun t _ => flushed_eq_of m c t R (hR t)) cover

/-! ## The result as a function of the arguments -/

/-- The result array as one function of the arguments: `GcnRow.G` of the aggregate and the degree factor (the host
    chains of the arguments), the features, the weights and the per-feature vectors. -/
def result (c : Dev nD) : S100000x256.Idx → EReal :=
  GcnRow.G (Cert.ReferenceIdeal.Read.val_main_v25 (F := Ideal) (m ((c : Thread nD τ).loc main_arg0)) (m ((c : Thread nD τ).loc main_arg1)) (m ((c : Thread nD τ).loc main_arg2))) (m ((c : Thread nD τ).loc main_arg0)) (Cert.ReferenceIdeal.Read.val_main_v12 (F := Ideal) (m ((c : Thread nD τ).loc main_arg2))) (m ((c : Thread nD τ).loc main_arg3)) (m ((c : Thread nD τ).loc main_arg7)) (m ((c : Thread nD τ).loc main_arg4)) (m ((c : Thread nD τ).loc main_arg5)) (m ((c : Thread nD τ).loc main_arg6)) (m ((c : Thread nD τ).loc main_arg8))

/-- The result function read off arrays equal to the arguments: what a second program computes from memories that agree
    with this one's on the arguments, through the same host chains and `GcnRow.G`, is this program's result. -/
theorem result_congr (c : Dev nD) (y0 : S100000x128.Idx → EReal) (y1 y2 : (⟨S1600000, .i32⟩ : BufTy).Contents (Elt Ideal))
    (y3 : S128x256.Idx → EReal) (y4 y5 y6 : S256.Idx → EReal) (y7 : S128x256.Idx → EReal) (y8 : S256.Idx → EReal)
    (h0 : y0 = (m ((c : Thread nD τ).loc main_arg0))) (h1 : y1 = (m ((c : Thread nD τ).loc main_arg1))) (h2 : y2 = (m ((c : Thread nD τ).loc main_arg2)))
    (h3 : y3 = (m ((c : Thread nD τ).loc main_arg3))) (h4 : y4 = (m ((c : Thread nD τ).loc main_arg4))) (h5 : y5 = (m ((c : Thread nD τ).loc main_arg5)))
    (h6 : y6 = (m ((c : Thread nD τ).loc main_arg6))) (h7 : y7 = (m ((c : Thread nD τ).loc main_arg7))) (h8 : y8 = (m ((c : Thread nD τ).loc main_arg8))) :
    GcnRow.G (Cert.ReferenceIdeal.Read.val_main_v25 (F := Ideal) y0 y1 y2) y0 (Cert.ReferenceIdeal.Read.val_main_v12 (F := Ideal) y2) y3 y7 y4 y5 y6 y8 = result m c := by
  subst h0 h1 h2 h3 h4 h5 h6 h7 h8
  rfl

/-- The body's payload on point t's blocks, at (p, q), is the result at node 4000·t + p and feature q: each block is
    its rows of the array the call finds, and that array is the host chain, the reshape or the argument it is. -/
theorem point_entry (c : Dev nD) (t : Fin cfg0.N) (p : Fin 4000) (q : Fin 256) (r : Fin 100000) (hr : r.val = t.val * 4000 + p.val) :
    k0_pay1 (F := Ideal) (iblk m c 1 t) (k0_pay2 (F := Ideal) (iblk m c 0 t) (iblk m c 2 t) (iblk m c 3 t) (iblk m c 4 t) (iblk m c 5 t) (iblk m c 6 t)) (iblk m c 7 t) (iblk m c 8 t) (ix2 p q)
      = result m c (ix2 r q) :=
  Block.point_entry_of (iblk m c 0 t) (iblk m c 1 t) (iblk m c 2 t) (iblk m c 3 t) (iblk m c 7 t) (iblk m c 4 t) (iblk m c 5 t) (iblk m c 6 t) (iblk m c 8 t) p q
    _ _ _ _ _ _ _ _ _ r
    (fun k => (blk0 m c t p k r hr).trans (congrFun (hostAgg m c) (ix2 r k)))
    (fun k => (blk1 m c t p k r hr).trans (congrFun (V_main_arg0 m c) (ix2 r k)))
    ((blk2 m c t p r hr).trans ((congrFun (hostDeg m c) (ix2 r (0 : Fin 1))).trans (shapeCast_a_a1_apply _ _ r)))
    (fun k l => (blk3 m c t k l).trans (congrFun (V_main_arg3 m c) (ix2 k l)))
    (fun k l => (blk7 m c t k l).trans (congrFun (V_main_arg7 m c) (ix2 k l)))
    (fun l => (blk4 m c t l).trans ((congrFun (hostBias m c) (ix2 (0 : Fin 1) l)).trans (shapeCast_a_1a_apply _ _ (0 : Fin 1) l)))
    (fun l => (blk5 m c t l).trans ((congrFun (hostGamma m c) (ix2 (0 : Fin 1) l)).trans (shapeCast_a_1a_apply _ _ (0 : Fin 1) l)))
    (fun l => (blk6 m c t l).trans ((congrFun (hostBeta m c) (ix2 (0 : Fin 1) l)).trans (shapeCast_a_1a_apply _ _ (0 : Fin 1) l)))
    (fun l => (blk8 m c t l).trans ((congrFun (hostSkipBias m c) (ix2 (0 : Fin 1) l)).trans (shapeCast_a_1a_apply _ _ (0 : Fin 1) l)))

/-- THE ARRAY after the run is the result function. -/
theorem final (c : Dev nD) : (dats m 0 c).arrAt 9 cfg0.N = result m c :=
  final_of m c (result m c) (fun t p q r hr => point_entry m c t p q r hr)

/-- The frame run re-posted: the result array at the result function of the arguments, the arguments unchanged. -/
theorem run : θ_run defs (onTc (τ := τ) (main (F := Ideal))) ⟨m, fun _ => 0, ρ⟩ fun r => ∀ c : Dev nD,
      r.2.mem ((c : Thread nD τ).loc main_v31) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Arr

end
-- ==== Proof.RefRow.lean ====
/-
  What the reference computes, entry by entry.

  The reference's dense half is restated here once as operations on whole arrays (`refScaled`, `refLin`, `refMean`,
  `refCentred`, `refInvStd`, `refNorm`, `refDense`) of ARBITRARY arrays: an aggregate A, a degree vector N, the
  features and the parameters. Each is read at the entry (r, j) of node r and feature j: the product as the sum over
  the 128 contracted features, the host sum as zero plus the sum of the row's 256 entries, a per-node column broadcast
  along the features as the column's entry at r, a per-feature vector broadcast over the nodes as its entry at j. So
  `refDense` at (r, j) is `GcnRow.rowOf` — for any A and N.

  The reference's last stage IS `refDense` of its own aggregate and degree stages (`val_main_v25`, `val_main_v12`: a
  gather and scatter-adds over the edges) and the arguments, by unfolding the stages in between; those two stages
  are never opened, and nothing here computes with them: every entry lemma is about array variables.
-/
import proofs.«150561_j11914239279898_1_alg».proof.Proof.Gen.ReferenceIdeal.Read
import proofs.«150561_j11914239279898_1_alg».proof.Proof.RowSpec
import Idealize.ShloMosaic.PureOps.Ideal.Laws
import Idealize.ShloMosaic.Lib.ValueIdx
import Idealize.ShloMosaic.Lib.Pipeline.Value

noncomputable section

open scoped BigOperators

namespace Cert.ReferenceIdeal.RefRow

open Cert.ReferenceIdeal Cert.ReferenceIdeal.Gen Cert.ReferenceIdeal.Read Idealize.ShloMosaic Idealize.ShloMosaic.ValueIdx Cert

/-! ## Broadcasts read at an entry -/

/-- A per-node vector as a column. -/
def colOf (v : FVec Ideal S100000 .f32) : FVec Ideal S100000x1 .f32 :=
  broadcastInDim S100000x1 ![0] bcast_S100000_S100000x1_0 v
/-- A per-node column along the 256 features. -/
def colsOf (v : FVec Ideal S100000x1 .f32) : FVec Ideal S100000x256 .f32 :=
  broadcastInDim S100000x256 ![0, 1] bcast_S100000x1_S100000x256_0_1 v
/-- A per-node column along the 128 input features. -/
def colsIn (v : FVec Ideal S100000x1 .f32) : FVec Ideal S100000x128 .f32 :=
  broadcastInDim S100000x128 ![0, 1] bcast_S100000x1_S100000x128_0_1 v
/-- A per-feature vector over all nodes. -/
def rowsOf (v : FVec Ideal S256 .f32) : FVec Ideal S100000x256 .f32 :=
  broadcastInDim S100000x256 ![0, 1] bcast_S1x256_S100000x256_0_1 (broadcastInDim S1x256 ![1] bcast_S256_S1x256_1 v)
/-- A float literal as a per-node column. -/
def splatCol (w : BitVec 32) : FVec Ideal S100000x1 .f32 :=
  broadcastInDim S100000x1 ![] bcast_S_S100000x1 (constant S_ .f32 w)
/-- A float literal over the whole result shape. -/
def splatAll (w : BitVec 32) : FVec Ideal S100000x256 .f32 :=
  broadcastInDim S100000x256 ![] bcast_S_S100000x256 (constant S_ .f32 w)

theorem colOf_entry (v : FVec Ideal S100000 .f32) (r : Fin 100000) (u : Fin 1) : colOf v (ix2 r u) = v (ix1 r) :=
  broadcastInDim_apply _ bcast_S100000_S100000x1_0 v (ix2 r u) (ix1 r) (fun a => match a with
    | ⟨0, _⟩ => by show r.val = if (100000 : Nat) = 1 then 0 else r.val; rw [if_neg (by decide)])

theorem colsOf_entry (v : FVec Ideal S100000x1 .f32) (r : Fin 100000) (l : Fin 256) :
    colsOf v (ix2 r l) = v (ix2 r (0 : Fin 1)) :=
  broadcastInDim_apply _ bcast_S100000x1_S100000x256_0_1 v (ix2 r l) (ix2 r (0 : Fin 1)) (fun a => match a with
    | ⟨0, _⟩ => by show r.val = if (100000 : Nat) = 1 then 0 else r.val; rw [if_neg (by decide)]
    | ⟨1, _⟩ => by show 0 = if (1 : Nat) = 1 then 0 else l.val; rw [if_pos rfl])

theorem colsIn_entry (v : FVec Ideal S100000x1 .f32) (r : Fin 100000) (k : Fin 128) :
    colsIn v (ix2 r k) = v (ix2 r (0 : Fin 1)) :=
  broadcastInDim_apply _ bcast_S100000x1_S100000x128_0_1 v (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

theorem rowsOf_entry (v : FVec Ideal S256 .f32) (r : Fin 100000) (l : Fin 256) : rowsOf v (ix2 r l) = v (ix1 l) :=
  (broadcastInDim_apply _ bcast_S1x256_S100000x256_0_1 _ (ix2 r l) (ix2 (0 : Fin 1) l) (fun a => match a with
    | ⟨0, _⟩ => by show 0 = if (1 : Nat) = 1 then 0 else r.val; rw [if_pos rfl]
    | ⟨1, _⟩ => by show l.val = if (256 : Nat) = 1 then 0 else l.val; rw [if_neg (by decide)])).trans
  (broadcastInDim_apply _ bcast_S256_S1x256_1 v (ix2 (0 : Fin 1) l) (ix1 l) (fun a => match a with
    | ⟨0, _⟩ => by show l.val = if (256 : Nat) = 1 then 0 else l.val; rw [if_neg (by decide)]))

theorem splatCol_entry (w : BitVec 32) (i : S100000x1.Idx) : splatCol w i = Ideal.ofBits .f32 w :=
  broadcastInDim_apply _ bcast_S_S100000x1 (constant (F := Ideal) S_ .f32 w) i ix0 (fun a => a.elim0)

theorem splatAll_entry (w : BitVec 32) (i : S100000x256.Idx) : splatAll w i = Ideal.ofBits .f32 w :=
  broadcastInDim_apply _ bcast_S_S100000x256 (constant (F := Ideal) S_ .f32 w) i ix0 (fun a => a.elim0)

/-! ## The product and the host sum at an entry -/

/-- A [100000,128] × [128,256] `dot_general` at (r, l): row r of the left operand against column l of the right. -/
theorem refDot_entry (L : FVec Ideal S100000x128 .f32) (R : FVec Ideal S128x256 .f32) (r : Fin 100000) (l : Fin 256) :
    Host.dotGeneral dot_S100000x128_S128x256_S100000x256_1_0_0_1_n_n none L R (ix2 r l) = ∑ k : Fin 128, L (ix2 r k) * R (ix2 k l) := by
  simp only [Host.dotGeneral]
  rw [Ideal.dotGeneral_apply, ← Equiv.sum_comp (contrEquiv1 dot_S100000x128_S128x256_S100000x256_1_0_0_1_n_n 128 rfl rfl).symm]
  refine Finset.sum_congr rfl fun k _ => ?_
  have hk := contrEquiv1_symm_val dot_S100000x128_S128x256_S100000x256_1_0_0_1_n_n 128 rfl rfl k
  have el : dot_S100000x128_S128x256_S100000x256_1_0_0_1_n_n.lhsIdx (ix2 r l) ((contrEquiv1 dot_S100000x128_S128x256_S100000x256_1_0_0_1_n_n 128 rfl rfl).symm k) = ix2 r k := funext fun a => Fin.ext (by
    match a with
    | ⟨0, _⟩ => exact lhs_main_v29_0 _ _
    | ⟨1, _⟩ => exact (lhs_main_v29_1 _ _).trans hk)
  have er : dot_S100000x128_S128x256_S100000x256_1_0_0_1_n_n.rhsIdx (ix2 r l) ((contrEquiv1 dot_S100000x128_S128x256_S100000x256_1_0_0_1_n_n 128 rfl rfl).symm k) = ix2 k l := funext fun a => Fin.ext (by
    match a with
    | ⟨0, _⟩ => exact (rhs_main_v29_0 _ _).trans hk
    | ⟨1, _⟩ => exact rhs_main_v29_1 _ _)
  rw [el, er]

/-- The host's sum along the features from an initial value, at node r. -/
theorem refSum_entry (g : FVec Ideal S100000x256 .f32) (init : FVec Ideal S_ .f32) (r : Fin 100000) :
    Host.reduceAdd g init reducesTo_S100000x256_S100000_d1 h_S_ (ix1 r) = init (Shape.Idx.first h_S_) + ∑ l : Fin 256, g (ix2 r l) := by
  simp only [Host.reduceAdd, Ideal.hostReduceAdd_def]
  rw [Ideal.hostReduceAdd_single reducesTo_S100000x256_S100000_d1 (by decide)]
  refine congrArg (_ + ·) (Finset.sum_congr rfl fun k _ => ?_)
  exact congrArg g (funext fun a => Fin.ext (by match a with | ⟨0, _⟩ => rfl | ⟨1, _⟩ => rfl))

/-! ## The stages on whole arrays -/

/-- The aggregate scaled node by node by the degree vector. -/
def refScaled (A : FVec Ideal S100000x128 .f32) (N : FVec Ideal S100000 .f32) : FVec Ideal S100000x128 .f32 :=
  mulf A (colsIn (colOf N))

theorem refScaled_entry (A : FVec Ideal S100000x128 .f32) (N : FVec Ideal S100000 .f32) (r : Fin 100000) (k : Fin 128) :
    refScaled A N (ix2 r k) = A (ix2 r k) * N (ix1 r) := by
  unfold refScaled
  rw [mulf_apply, colsIn_entry, colOf_entry]

/-- A linear layer on all nodes. -/
def refLin (X : FVec Ideal S100000x128 .f32) (W : FVec Ideal S128x256 .f32) (b : FVec Ideal S256 .f32) : FVec Ideal S100000x256 .f32 :=
  addf (Host.dotGeneral dot_S100000x128_S128x256_S100000x256_1_0_0_1_n_n none X W) (rowsOf b)

theorem refLin_entry (X : FVec Ideal S100000x128 .f32) (W : FVec Ideal S128x256 .f32) (b : FVec Ideal S256 .f32) (r : Fin 100000) (l : Fin 256) :
    refLin X W b (ix2 r l) = GcnRow.lin (fun k => X (ix2 r k)) (fun k l => W (ix2 k l)) (fun l => b (ix1 l)) l := by
  unfold refLin GcnRow.lin
  rw [addf_apply, refDot_entry, rowsOf_entry]

/-- The row means, kept as a column. -/
def refMean (g : FVec Ideal S100000x256 .f32) : FVec Ideal S100000x1 .f32 :=
  Host.divf (colOf (Host.reduceAdd g (constant S_ .f32 0x00000000#32) reducesTo_S100000x256_S100000_d1 h_S_)) (splatCol 0x43800000#32)

theorem refMean_entry (g : FVec Ideal S100000x256 .f32) (r : Fin 100000) (u : Fin 1) :
    refMean g (ix2 r u) = GcnRow.mean (fun l => g (ix2 r l)) := by
  unfold refMean GcnRow.mean
  show Ideal.div (colOf _ (ix2 r u)) (splatCol _ (ix2 r u)) = _
  rw [colOf_entry, refSum_entry, splatCol_entry]
  show Ideal.div (Ideal.ofBits .f32 0x00000000#32 + _) _ = _
  rw [Ideal.ofBits_zero_f32, zero_add]

/-- The rows with their means taken off. -/
def refCentred (g : FVec Ideal S100000x256 .f32) : FVec Ideal S100000x256 .f32 := subf g (colsOf (refMean g))

theorem refCentred_entry (g : FVec Ideal S100000x256 .f32) (r : Fin 100000) (l : Fin 256) :
    refCentred g (ix2 r l) = g (ix2 r l) - GcnRow.mean (fun l => g (ix2 r l)) := by
  unfold refCentred
  rw [subf_apply, colsOf_entry, refMean_entry]

/-- The rows' reciprocal standard deviations, kept as a column. -/
def refInvStd (g : FVec Ideal S100000x256 .f32) : FVec Ideal S100000x1 .f32 :=
  Host.rsqrt (addf (refMean (mulf (refCentred g) (refCentred g))) (splatCol 0x3727C5AC#32))

theorem refInvStd_entry (g : FVec Ideal S100000x256 .f32) (r : Fin 100000) (u : Fin 1) :
    refInvStd g (ix2 r u) = GcnRow.invStd (fun l => g (ix2 r l)) := by
  unfold refInvStd GcnRow.invStd
  show Ideal.rsqrt (refMean (mulf (refCentred g) (refCentred g)) (ix2 r u) + splatCol _ (ix2 r u)) = _
  rw [refMean_entry, splatCol_entry]
  simp only [mulf_apply, refCentred_entry]

/-- LayerNorm on all nodes. -/
def refNorm (g : FVec Ideal S100000x256 .f32) (ga be : FVec Ideal S256 .f32) : FVec Ideal S100000x256 .f32 :=
  addf (mulf (mulf (refCentred g) (colsOf (refInvStd g))) (rowsOf ga)) (rowsOf be)

theorem refNorm_entry (g : FVec Ideal S100000x256 .f32) (ga be : FVec Ideal S256 .f32) (r : Fin 100000) (l : Fin 256) :
    refNorm g ga be (ix2 r l) = GcnRow.norm (fun l => g (ix2 r l)) (fun l => ga (ix1 l)) (fun l => be (ix1 l)) l := by
  unfold refNorm GcnRow.norm
  rw [addf_apply, mulf_apply, mulf_apply, refCentred_entry, colsOf_entry, refInvStd_entry, rowsOf_entry, rowsOf_entry]

/-- The dense half on all nodes: LayerNorm of the linear layer of the scaled aggregate, ReLU, plus the skip layer. -/
def refDense (A : FVec Ideal S100000x128 .f32) (N : FVec Ideal S100000 .f32) (X : FVec Ideal S100000x128 .f32)
    (W : FVec Ideal S128x256 .f32) (b ga be : FVec Ideal S256 .f32) (sW : FVec Ideal S128x256 .f32) (sb : FVec Ideal S256 .f32) :
    FVec Ideal S100000x256 .f32 :=
  addf (maximumf (refNorm (refLin (refScaled A N) W b) ga be) (splatAll 0x00000000#32)) (refLin X sW sb)

/-- THE DENSE HALF AT AN ENTRY, for any aggregate and degree vector: node r's row through the block's formula. -/
theorem refDense_entry (A : FVec Ideal S100000x128 .f32) (N : FVec Ideal S100000 .f32) (X : FVec Ideal S100000x128 .f32)
    (W : FVec Ideal S128x256 .f32) (b ga be : FVec Ideal S256 .f32) (sW : FVec Ideal S128x256 .f32) (sb : FVec Ideal S256 .f32)
    (r : Fin 100000) (j : Fin 256) :
    refDense A N X W b ga be sW sb (ix2 r j) = GcnRow.rowOf A X N W sW b ga be sb r j := by
  unfold refDense GcnRow.rowOf GcnRow.out
  rw [addf_apply, maximumf_apply, refNorm_entry, refLin_entry, splatAll_entry]
  simp only [refLin_entry, refScaled_entry]

/-- So the dense half of any aggregate and degree vector is `GcnRow.G` of them. -/
theorem refDense_eq (A : FVec Ideal S100000x128 .f32) (N : FVec Ideal S100000 .f32) (X : FVec Ideal S100000x128 .f32)
    (W : FVec Ideal S128x256 .f32) (b ga be : FVec Ideal S256 .f32) (sW : FVec Ideal S128x256 .f32) (sb : FVec Ideal S256 .f32) :
    refDense A N X W b ga be sW sb = GcnRow.G A X N W sW b ga be sb := by
  funext i
  obtain ⟨r, j, rfl⟩ : ∃ (r : Fin 100000) (j : Fin 256), i = ix2 r j := ⟨i 0, i 1, eq_ix2 i⟩
  rw [GcnRow.G_ix2]
  exact refDense_entry A N X W b ga be sW sb r j

/-! ## The reference's last stage is the dense half of its own aggregate and degree stages -/

section Stages

variable (x0 : (⟨S100000x128, .f32⟩ : BufTy).Contents (Elt Ideal)) (x1 x2 : (⟨S1600000, .i32⟩ : BufTy).Contents (Elt Ideal))
  (x3 : (⟨S128x256, .f32⟩ : BufTy).Contents (Elt Ideal)) (x4 x5 x6 : (⟨S256, .f32⟩ : BufTy).Contents (Elt Ideal))
  (x7 : (⟨S128x256, .f32⟩ : BufTy).Contents (Elt Ideal)) (x8 : (⟨S256, .f32⟩ : BufTy).Contents (Elt Ideal))

/-- The stages between the aggregate, the degree vector and the result, unfolded: the dense half. -/
theorem stage_eq :
    val_main_v62 (F := Ideal) x0 x1 x2 x3 x4 x5 x6 x7 x8
      = refDense (val_main_v25 (F := Ideal) x0 x1 x2) (val_main_v12 (F := Ideal) x2) x0 x3 x4 x5 x6 x7 x8 := rfl

/-- THE REFERENCE'S RESULT is `GcnRow.G` of its aggregate and degree stages and the arguments. -/
theorem ref_eq :
    val_main_v62 (F := Ideal) x0 x1 x2 x3 x4 x5 x6 x7 x8
      = GcnRow.G (val_main_v25 (F := Ideal) x0 x1 x2) x0 (val_main_v12 (F := Ideal) x2) x3 x7 x4 x5 x6 x8 :=
  (stage_eq x0 x1 x2 x3 x4 x5 x6 x7 x8).trans (refDense_eq _ _ _ _ _ _ _ _ _)

end Stages

end Cert.ReferenceIdeal.RefRow

end
-- ==== Proof.lean ====
/-
  The graph-convolution block: a Pallas kernel for the dense half against a plain jnp reference.

  Both programs compute, for each of 100000 nodes, the same row function. First a host prelude, identical in the two
  programs operation for operation: in- and out-degrees as scatter-adds of ones over the 1.6M edges, clamped below
  by 1, their rsqrt; the features scaled by the source factor, gathered along the edges' sources and scatter-added
  at their destinations (the aggregate). Then the dense half: the aggregate scaled by the destination factor,
  a linear layer 128 → 256, LayerNorm over the 256 features (means as sums divided by 256, rsqrt of the variance
  plus ε), ReLU, plus a skip linear layer of the node's own features. The reference does the dense half with whole-
  array host operations; the kernel does it in one call tiled into 25 blocks of 4000 nodes, the matrix products
  into zero accumulators on blocks, the row sums as lane reductions, the per-node column and per-feature rows
  broadcast inside the block.

  At the ideal instance nothing distinguishes the two but the tiling and the layout: a matrix product into a zero
  accumulator and the host's `dot_general` are the same sum over the contracted features, a lane reduction and the
  host's sum from zero the same sum over the row, the two divisions and the two rsqrts one function each, and every
  float literal (256, ε, 0, and the prelude's 1) is the same word on both sides. No law of arithmetic is used beyond
  `0 + s = s`, so the precondition is not opened. The prelude is never opened either: each program's aggregate and
  degree factor are the same host chain of the same arguments.

  Proof/RowSpec.lean states the row function and the whole result `GcnRow.G`; Proof/KernelBlock.lean reads the body's
  payload at an entry of a block; Proof/KernelArray.lean puts the 25 blocks together into the result array and the
  run; Proof/RefRow.lean reads the reference's dense half at an entry; the claims are assembled here. The frames of
  the two kernel programs and the reference's run are the generated ones.
-/
import proofs.«150561_j11914239279898_1_alg».proof.Defs
import proofs.«150561_j11914239279898_1_alg».proof.Proof.Gen.Kernel
import proofs.«150561_j11914239279898_1_alg».proof.Proof.Gen.Kernel.Skeleton
import proofs.«150561_j11914239279898_1_alg».proof.Proof.Gen.Kernel.Launch
import proofs.«150561_j11914239279898_1_alg».proof.Proof.Gen.Kernel.Points
import proofs.«150561_j11914239279898_1_alg».proof.Proof.Gen.Kernel.Frame
import proofs.«150561_j11914239279898_1_alg».proof.Proof.Gen.KernelIdeal
import proofs.«150561_j11914239279898_1_alg».proof.Proof.Gen.KernelIdeal.Skeleton
import proofs.«150561_j11914239279898_1_alg».proof.Proof.Gen.KernelIdeal.Launch
import proofs.«150561_j11914239279898_1_alg».proof.Proof.Gen.KernelIdeal.Points
import proofs.«150561_j11914239279898_1_alg».proof.Proof.Gen.KernelIdeal.Frame
import proofs.«150561_j11914239279898_1_alg».proof.Proof.Gen.ReferenceIdeal
import proofs.«150561_j11914239279898_1_alg».proof.Proof.Gen.Pre_finite_inputs
import proofs.«150561_j11914239279898_1_alg».proof.Proof.Gen.KernelIdeal.Value
import proofs.«150561_j11914239279898_1_alg».proof.Proof.Gen.ReferenceIdeal.Run
import proofs.«150561_j11914239279898_1_alg».proof.Proof.Gen.ReferenceIdeal.Read
import proofs.«150561_j11914239279898_1_alg».proof.Proof.KernelArray
import proofs.«150561_j11914239279898_1_alg».proof.Proof.RefRow
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, the kernel's result array ends at `GcnRow.G` of its aggregate, degree
    factor and arguments, and the reference's result at `GcnRow.G` of its own; the aggregates and degree factors are
    the same host chains of arguments that agree, so the two results are one array. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  exact (Cert.ReferenceIdeal.Read.val_main_v62_eq m' c).trans
    ((Cert.ReferenceIdeal.RefRow.ref_eq _ _ _ _ _ _ _ _ _).trans
      (Cert.KernelIdeal.Arr.result_congr m c _ _ _ _ _ _ _ _ _ h0 h1 h2 h3 h4 h5 h6 h7 h8))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
